-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  main_v3
-- ==== Kernel.lean ====
abbrev S8x2048x2048 : Shape := ⟨3, ![8, 2048, 2048]⟩
abbrev S8x1x2048 : Shape := ⟨3, ![8, 1, 2048]⟩
abbrev S1x512x2048 : Shape := ⟨3, ![1, 512, 2048]⟩
abbrev S1x1x2048 : Shape := ⟨3, ![1, 1, 2048]⟩
abbrev S1x2048 : Shape := ⟨2, ![1, 2048]⟩
abbrev S1x256x2048 : Shape := ⟨3, ![1, 256, 2048]⟩
abbrev S1x256 : Shape := ⟨2, ![1, 256]⟩
abbrev S1x256x1 : Shape := ⟨3, ![1, 256, 1]⟩
abbrev S8x2048x2048x1 : Shape := ⟨4, ![8, 2048, 2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x1x2048, .f32⟩
  | .hbm, ⟨2, _⟩ => ⟨S8x1x2048, .f32⟩
  | .hbm, ⟨3, _⟩ => ⟨S8x2048x2048, .f32⟩
  | .hbm, ⟨4, _⟩ => ⟨S8x2048x2048, .f32⟩
  | .hbm, ⟨5, _⟩ => ⟨S8x2048x2048x1, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x256x2048, .f32⟩
  | .local _ .vmem, ⟨13, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  inb_S1x512x2048_S1x512x2048_0_0_0 : ∀ a, (![0, 0, 0] : Fin 3 → Nat) a + S1x512x2048.size a ≤ S1x512x2048.size a
  h_S1x512x2048 : 0 < S1x512x2048.numel
  shapeCasts_S1x1x2048_S1x1x2048 : S1x1x2048.ShapeCasts S1x1x2048
  reduces_S1x512x2048_S1x2048 : S1x512x2048.Reduces [1] S1x2048
  shapeCasts_S1x2048_S1x1x2048 : S1x2048.ShapeCasts S1x1x2048
  inb_S1x256x2048_S1x256x2048_0_0_0 : ∀ a, (![0, 0, 0] : Fin 3 → Nat) a + S1x256x2048.size a ≤ S1x256x2048.size a
  h_S1x256x2048 : 0 < S1x256x2048.numel
  reduces_S1x256x2048_S1x256 : S1x256x2048.Reduces [2] S1x256
  shapeCasts_S1x256_S1x256x1 : S1x256.ShapeCasts S1x256x1
  broadcasts_S1x256x1_S1x256x2048 : S1x256x1.Broadcasts S1x256x2048
  broadcasts_S1x1x2048_S1x256x2048 : S1x1x2048.Broadcasts S1x256x2048
  bcast_S8x2048x2048_S8x2048x2048x1_0_1_2 : S8x2048x2048.BroadcastsInDim S8x2048x2048x1 (![0, 1, 2] : Fin 3 → Fin S8x2048x2048x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x2048.size a
  hwx0_1 : ∀ i : grid0.Coords, EltTy.bits .f32 = 32 ∨ (Rect.block (s := S8x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S8x2048x2048.size a
  hwx1_0 : ∀ i : grid1.Coords, EltTy.bits .f32 = 32 ∨ (Rect.block (s := S8x2048x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S8x1x2048.size a
  hwx1_1 : ∀ i : grid1.Coords, EltTy.bits .f32 = 32 ∨ (Rect.block (s := S8x1x2048) S1x1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S8x1x2048.size a
  hwx1_2 : ∀ i : grid1.Coords, EltTy.bits .f32 = 32 ∨ (Rect.block (s := S8x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S8x2048x2048.size a
  hwx1_3 : ∀ i : grid1.Coords, EltTy.bits .f32 = 32 ∨ (Rect.block (s := S8x2048x2048) S1x256x2048.size (cc1_transform_3 i) (hinb1_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048x1 : Shape := ⟨4, ![8, 2048, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S8x2048x1, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x1x2048, .f32⟩
  | .hbm, ⟨23, _⟩ => ⟨S_, .f32⟩
  | .hbm, ⟨24, _⟩ => ⟨S8x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048x1, .f32⟩
  | .hbm, ⟨40, _⟩ => ⟨S8x2048x2048x1, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S8x2048x2048_S8x2048x2048x1_0_1_2 : S8x2048x2048.BroadcastsInDim S8x2048x2048x1 (![0, 1, 2] : Fin 3 → Fin S8x2048x2048x1.rank)

variable [Facts₀]

class Facts : Prop extends Facts₀ where

variable [Facts]
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.Spec.lean ====
/- What both programs compute, index by index, over the extended reals.

   For an array x of shape [8, 2048, 2048] (batch b, row n, column j) let
     R(b, n)  = Σ_j x(b, n, j)       and  R₂(b, n) = Σ_j x(b, n, j)²      (a row's sum and sum of squares),
     C(b, j)  = Σ_n x(b, n, j)       and  C₂(b, j) = Σ_n x(b, n, j)²      (a column's).
   Leaving the entry v = x(b, n, j) out of a sum s and a sum of squares q, and scaling by the constant κ
   (the f32 word nearest 1/2047, the SAME word in both programs, so its value is never needed), gives
     loo(s, q, v) = (q - v·v)·κ - ((s - v)·κ)·((s - v)·κ).
   The result at (b, n, j, 0) is min(loo(R, R₂, v), loo(C, C₂, v)) taken at row 2047 - n: the rows are reversed.
   The sums are bare sums: each program adds its own zero word to them, and 0 + s = s on the extended reals.

   The one regrouping used: a column's sum over its 2048 rows is the sum over four blocks of 512 consecutive rows
   of the blocks' sums. That is associativity and commutativity of +, which the extended reals have without
   any finiteness assumption. -/
import Idealize.ShloMosaic.PureOps.Ideal.Laws
import Idealize.ShloMosaic.Lib.ValueIdx
import proofs.«137009_j40870908789394_1_alg».proof.Proof.LibBlockSum

noncomputable section

open scoped BigOperators

namespace Cert.LooVar

open Idealize.ShloMosaic Idealize.ShloMosaic.ValueIdx

/-- An array of shape [8, 2048, 2048] of extended reals. -/
abbrev Arr : Type := (⟨3, ![8, 2048, 2048]⟩ : Shape).Idx → EReal
/-- The result's shape [8, 2048, 2048, 1]. -/
abbrev Res : Type := (⟨4, ![8, 2048, 2048, 1]⟩ : Shape).Idx → EReal

/-- A statistics array: one row of 2048 columns per batch, shape [8, 1, 2048]. -/
abbrev Cols : Type := (⟨3, ![8, 1, 2048]⟩ : Shape).Idx → EReal

/-- κ: the scale both programs multiply by, as the word they both print. -/
def scale : EReal := Ideal.ofBits .f32 0x3A001002#32

/-- Row (b, n)'s sum over its 2048 columns. -/
def rowSum (x : Arr) (b : Fin 8) (n : Fin 2048) : EReal := ∑ j : Fin 2048, x (ix3 b n j)
/-- Column (b, j)'s sum over its 2048 rows. -/
def colSum (x : Arr) (b : Fin 8) (j : Fin 2048) : EReal := ∑ n : Fin 2048, x (ix3 b n j)
/-- The column sums laid out as a statistics array: entry (b, 0, j) is column (b, j)'s sum. -/
def colArr (x : Arr) : Cols := fun i => colSum x (i 0) (i 2)
/-- The entrywise square. -/
def squares (x : Arr) : Arr := fun i => x i * x i

/-- The leave-one-out variance from a sum `s`, a sum of squares `q` and the entry `v` left out. -/
def loo (s q v : EReal) : EReal := (q - v * v) * scale - ((s - v) * scale) * ((s - v) * scale)

/-- The smaller of the row's and the column's leave-one-out variance at (b, n, j). -/
def looMin (x : Arr) (b : Fin 8) (n j : Fin 2048) : EReal :=
  min (loo (rowSum x b n) (rowSum (squares x) b n) (x (ix3 b n j))) (loo (colSum x b j) (colSum (squares x) b j) (x (ix3 b n j)))

/-- The result: `looMin` with the rows reversed, under a trailing axis of size one. -/
def result (x : Arr) : Res := fun i => looMin x (i 0) (i 1).rev (i 2)

/-- Row `r` of the `k`-th block of 512 consecutive rows. -/
abbrev blockRow (k : Fin 4) (r : Fin 512) : Fin 2048 := Cert.BlockSum.pos (by decide : 4 * 512 = 2048) k r

theorem blockRow_val (k : Fin 4) (r : Fin 512) : (blockRow k r).val = 512 * k.val + r.val := rfl

/-- A column's sum is the sum over the four row blocks of each block's sum. -/
theorem colSum_blocks (x : Arr) (b : Fin 8) (j : Fin 2048) :
    ∑ k : Fin 4, ∑ r : Fin 512, x (ix3 b (blockRow k r) j) = colSum x b j :=
  Cert.BlockSum.sum_blocks (by decide : 4 * 512 = 2048) (fun n => x (ix3 b n j))

end Cert.LooVar

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.Layout.lean ====
/- Three layout facts a kernel with both row and column statistics meets, each read at an index written by its
   coordinates: a matrix [a, b] viewed as [a, b, 1]; [a, b, 1] broadcast along its last axis to [a, b, c]; and a sum
   over the MIDDLE of three axes, as the sum over that axis's coordinate. Every shape fact is a variable, so a lemma
   applies whatever proof term a program carries for it. -/
import proofs.«137009_j40870908789394_1_alg».proof.Proof.LibKeepdims

noncomputable section

open scoped BigOperators

namespace Cert.LooVar.Layout

open Idealize.ShloMosaic Idealize.ShloMosaic.ValueIdx

variable {α : Type}

/-- A matrix [a, b] viewed as [a, b, 1] reads, at (r, k, u), the matrix at (r, k): the same row-major position. -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_two, Shape.rowMajor_val_three]
    show r.val * b + k.val = (r.val * b + k.val) * 1 + u.val
    rw [hu, Nat.mul_one, Nat.add_zero])

/-- [a, b, 1] broadcast along its last axis reads, at (r, k, q), the operand at (r, k, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (k : Fin b) (q : Fin c) :
    broadcastTo ⟨3, ![a, b, c]⟩ x h (ix3 r k q) = x (ix3 r k (0 : Fin 1)) :=
  broadcastTo_apply x h _ _ (fun ax => match ax with
    | ⟨0, _⟩ => by
      have := r.isLt
      show r.val = if a = 1 then 0 else r.val
      split <;> omega
    | ⟨1, _⟩ => by
      have := k.isLt
      show k.val = if b = 1 then 0 else k.val
      split <;> omega
    | ⟨2, _⟩ => by
      show 0 = if (1 : ℕ) = 1 then 0 else q.val
      rw [if_pos rfl])

/-- The index over (r, q) with k inserted on the middle of three axes is (r, k, q). -/
theorem lift_mid3 {a b c : ℕ} (h : (⟨3, ![a, b, c]⟩ : Shape).Reduces [1] ⟨2, ![a, c]⟩) (r : Fin a) (q : Fin c) (k : Fin b) :
    h.lift (ix2 r q) k = ix3 r k q :=
  funext fun ax => Fin.ext (by match ax with | ⟨0, _⟩ => rfl | ⟨1, _⟩ => rfl | ⟨2, _⟩ => rfl)

variable {φ : FTy}

/-- A sum over the middle of three axes, at (r, q): the sum over k of the source at (r, k, q). -/
theorem sum_mid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (r : Fin a) (q : Fin c) :
    multiReduction .add [1] ⟨2, ![a, c]⟩ src acc h hφ hacc (ix2 r q) = ∑ k : Fin b, src (ix3 r k q) :=
  (Ideal.multiReduction_add_single src acc h hφ hacc (ix2 r q)).trans
    (Finset.sum_congr rfl fun k _ => congrArg src (lift_mid3 h r q k))

/-! The same two sums as a kernel prints them for f32: the accumulator is the zero word, and the proof that it is
    the neutral element is carried as a proof of `0 = 0` on words. Stated with the hypothesis in that printed form. -/

/-- An f32 sum from the zero word over the last of three axes, at (r, k). -/
theorem sum_last3_zero {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (r : Fin a) (k : Fin b) :
    multiReduction .add [2] ⟨2, ![a, b]⟩ src 0x00000000#32 h hφ hacc (ix2 r k) = ∑ q : Fin c, src (ix3 r k q) :=
  Cert.Keepdims.sum_last3_apply src 0x00000000#32 h hφ hacc r k

/-- An f32 sum from the zero word over the middle of three axes, at (r, q). -/
theorem sum_mid3_zero {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (r : Fin a) (q : Fin c) :
    multiReduction .add [1] ⟨2, ![a, c]⟩ src 0x00000000#32 h hφ hacc (ix2 r q) = ∑ k : Fin b, src (ix3 r k q) :=
  sum_mid3_apply src 0x00000000#32 h hφ hacc r q

end Cert.LooVar.Layout

end
-- ==== Proof.ColStats.lean ====
/- The first kernel region: it leaves, in its two output arrays of shape [8, 1, 2048], every column's sum and sum of
   squares.

   The 8 × 4 grid's point t handles batch b = t / 4 and the block of 512 rows k = t % 4. An output's block (row b of
   its array) stays in place over the four points of a batch and is written back after the fourth. At the first of the
   four the body stores zeros, reads them back and adds the block's column sums: 0 + S₀. At each of the other three it
   adds the block's column sums to what the point before left. So after point t the block holds S₀ + … + S_k, by
   induction on the point; after the fourth that is the sum over the four blocks, which is the column's sum over all
   2048 rows (a regrouping of +, valid on the extended reals with no finiteness). The 8 flushing points cover the
   array. -/
import proofs.«137009_j40870908789394_1_alg».proof.Proof.Gen.KernelIdeal.Frame
import proofs.«137009_j40870908789394_1_alg».proof.Proof.Spec
import proofs.«137009_j40870908789394_1_alg».proof.Proof.Layout
import Idealize.ShloMosaic.Lib.Pipeline.Value
import Idealize.ShloMosaic.Lib.Tactic

noncomputable section

open scoped BigOperators

namespace Cert.KernelIdeal.ColStats

open Cert.KernelIdeal Cert.KernelIdeal.Gen Cert.LooVar Cert.LooVar.Layout Cert.Keepdims
open Idealize.ShloMosaic Idealize.ShloMosaic.TcCoe Idealize.ShloMosaic.ValueIdx Idealize.SL.Sem Idealize.ShloMosaic.Tactic
open Idealize.ShloMosaic.Pipeline (Dat)

theorem hz3 : (![0, 0, 0] : Fin 3 → Nat) = fun _ => 0 := funext fun a => by fin_cases a <;> rfl

/-! ## What each case of the body leaves in an output's block -/

section Pieces
variable {F : FTy → Type} [FloatOps F]

/-- At a batch's first point the sum's block ends at the body's update of the zero block it has just stored. -/
theorem out_A_1 (c : Dev nD) (i : grid0.Coords) (a2 : Memref sig .tc .vmem S1x512x2048 .f32) (h2 : a2.IsWhole)
    (a3 : Memref sig .tc .vmem S1x1x2048 .f32) (h3 : a3.IsWhole) (a4 : Memref sig .tc .vmem S1x1x2048 .f32) (h4 : a4.IsWhole)
    (hc : cond0_0 i) (x0 : Vec F S1x512x2048 .f32) :
    out0_A_1 c i a2 h2 a3 h3 a4 h4 hc x0 = k0_pay3 x0 (k0_pay1 (F := F)) := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h4.read_unread, View.ld_unit_zero (S := S1x512x2048) hz3, View.ld_unit_zero (S := S1x1x2048) hz3]

/-- The same for the sum of squares' block. -/
theorem out_A_2 (c : Dev nD) (i : grid0.Coords) (a2 : Memref sig .tc .vmem S1x512x2048 .f32) (h2 : a2.IsWhole)
    (a3 : Memref sig .tc .vmem S1x1x2048 .f32) (h3 : a3.IsWhole) (a4 : Memref sig .tc .vmem S1x1x2048 .f32) (h4 : a4.IsWhole)
    (hc : cond0_0 i) (x0 : Vec F S1x512x2048 .f32) :
    out0_A_2 c i a2 h2 a3 h3 a4 h4 hc x0 = k0_pay4 x0 (k0_pay2 (F := F)) := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h4.read_unread, View.ld_unit_zero (S := S1x512x2048) hz3, View.ld_unit_zero (S := S1x1x2048) hz3]

/-- At a later point of a batch the sum's block ends at the body's update of what it held. -/
theorem out_B_1 (c : Dev nD) (i : grid0.Coords) (a2 : Memref sig .tc .vmem S1x512x2048 .f32) (h2 : a2.IsWhole)
    (a3 : Memref sig .tc .vmem S1x1x2048 .f32) (h3 : a3.IsWhole) (a4 : Memref sig .tc .vmem S1x1x2048 .f32) (h4 : a4.IsWhole)
    (hc : ¬cond0_0 i) (x0 : Vec F S1x512x2048 .f32) (xo1 xo2 : Vec F S1x1x2048 .f32) :
    out0_B_1 c i a2 h2 a3 h3 a4 h4 hc x0 xo1 xo2 = k0_pay3 x0 xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero hz3]
  simp only [View.readAt_eq_ld, h2.read_unread, h3.read_unread, h4.read_unread, View.ld_unit_zero (S := S1x512x2048) hz3, View.ld_unit_zero (S := S1x1x2048) hz3]

/-- The same for the sum of squares' block. -/
theorem out_B_2 (c : Dev nD) (i : grid0.Coords) (a2 : Memref sig .tc .vmem S1x512x2048 .f32) (h2 : a2.IsWhole)
    (a3 : Memref sig .tc .vmem S1x1x2048 .f32) (h3 : a3.IsWhole) (a4 : Memref sig .tc .vmem S1x1x2048 .f32) (h4 : a4.IsWhole)
    (hc : ¬cond0_0 i) (x0 : Vec F S1x512x2048 .f32) (xo1 xo2 : Vec F S1x1x2048 .f32) :
    out0_B_2 c i a2 h2 a3 h3 a4 h4 hc x0 xo1 xo2 = k0_pay4 x0 xo2 := by
  unfold out0_B_2
  rw [View.read_writes_eq_canon _ _ _ (cover0_B_2 c i a2 h2 a3 h3 a4 h4 hc x0 xo1 xo2)]
  unfold kernelRun0_B
  dsimp only
  sl_unfold_words
  rw [View.canon_unit_zero hz3]
  simp only [View.readAt_eq_ld, h2.read_unread, h3.read_unread, h4.read_unread, View.ld_unit_zero (S := S1x512x2048) hz3, View.ld_unit_zero (S := S1x1x2048) hz3]

end Pieces

/-! ## The body's updates at a column -/

/-- The stored zero block is 0 at every column. -/
theorem zero1_apply (j : Fin 2048) : k0_pay1 (F := Ideal) (ix3 (0 : Fin 1) (0 : Fin 1) j) = 0 := Ideal.ofBits_zero_f32
theorem zero2_apply (j : Fin 2048) : k0_pay2 (F := Ideal) (ix3 (0 : Fin 1) (0 : Fin 1) j) = 0 := Ideal.ofBits_zero_f32

/-- The sum's update at column j: what the block held there plus the sum of the 512 rows' entries of column j. -/
theorem upd1_apply (x0 : Vec Ideal S1x512x2048 .f32) (acc : Vec Ideal S1x1x2048 .f32) (j : Fin 2048) :
    k0_pay3 (F := Ideal) x0 acc (ix3 (0 : Fin 1) (0 : Fin 1) j)
      = acc (ix3 (0 : Fin 1) (0 : Fin 1) j) + ∑ r : Fin 512, x0 (ix3 (0 : Fin 1) r j) := by
  unfold k0_pay3
  dsimp only
  simp only [addf_apply]
  rw [shapeCast_self, shapeCast_ac_a1c_apply, sum_mid3_zero]

/-- The sum of squares' update at column j. -/
theorem upd2_apply (x0 : Vec Ideal S1x512x2048 .f32) (acc : Vec Ideal S1x1x2048 .f32) (j : Fin 2048) :
    k0_pay4 (F := Ideal) x0 acc (ix3 (0 : Fin 1) (0 : Fin 1) j)
      = acc (ix3 (0 : Fin 1) (0 : Fin 1) j) + ∑ r : Fin 512, x0 (ix3 (0 : Fin 1) r j) * x0 (ix3 (0 : Fin 1) r j) := by
  unfold k0_pay4
  dsimp only
  simp only [addf_apply]
  rw [shapeCast_self, shapeCast_ac_a1c_apply, sum_mid3_zero]
  rfl

/-! ## A column's sum, block of rows by block of rows -/

/-- The sum of column (b, j) over the k-th block of 512 rows (0 past the fourth block). -/
def blockSum (x : Arr) (b : Fin 8) (j : Fin 2048) (k : ℕ) : EReal :=
  if h : k < 4 then ∑ r : Fin 512, x (ix3 b (blockRow ⟨k, h⟩ r) j) else 0

/-- The four blocks' sums add up to the column's sum. -/
theorem sum_blockSum (x : Arr) (b : Fin 8) (j : Fin 2048) : ∑ k ∈ Finset.range 4, blockSum x b j k = colSum x b j := by
  rw [Finset.sum_range, ← colSum_blocks]
  refine Finset.sum_congr rfl fun k _ => ?_
  unfold blockSum
  rw [dif_pos k.isLt]

/-! ## The region's windows -/

variable (V : (c : Dev nD) → (b : Ref sig .tc) → Buf (Elt Ideal) ((c : Thread nD τ).loc b))

/-- The printed index maps over the grid: point t is batch t / 4 and row block t % 4 for x, batch t / 4 for the outputs. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The batch of position n. -/
def batchOf (n : ℕ) (h : n < cfg0.N) : Fin 8 := ⟨n / 4, by
  have hN : n < 32 := lt_of_lt_of_eq h (show cfg0.N = 32 from N_0)
  omega⟩

/-- Point t's block of x, named at its literal type [1, 512, 2048] (so that its entries add and multiply as extended reals). -/
abbrev xblk (c : Dev nD) (t : Fin cfg0.N) : Vec Ideal S1x512x2048 .f32 := iblk0 V c 0 t

/-- Point t's block of x, at (0, r, j): x at batch t / 4, row 512·(t % 4) + r, column j. -/
theorem read_x (c : Dev nD) (t : Fin cfg0.N) (r : Fin 512) (j : Fin 2048) :
    xblk V c t (ix3 (0 : Fin 1) r j)
      = (V c main_arg0 : Arr) (ix3 (batchOf t.val t.isLt) (blockRow ⟨t.val % 4, Nat.mod_lt _ (by decide)⟩ r) j) := by
  obtain ⟨e0, e1, e2, -⟩ := idx_facts t
  unfold xblk iblk0
  rw [View.read_apply]
  show (V c main_arg0 : Arr) _ = _
  congr 1
  funext a
  apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 2048 + 1 * j.val = j.val; omega

/-- The column sums of point t's block are its batch's block sums at t % 4. -/
theorem tile_sum (c : Dev nD) (t : Fin cfg0.N) (j : Fin 2048) :
    ∑ r : Fin 512, xblk V c t (ix3 (0 : Fin 1) r j)
      = blockSum (V c main_arg0) (batchOf t.val t.isLt) j (t.val % 4) := by
  unfold blockSum
  rw [dif_pos (Nat.mod_lt _ (by decide))]
  exact Finset.sum_congr rfl fun r _ => read_x V c t r j

theorem tile_sumSq (c : Dev nD) (t : Fin cfg0.N) (j : Fin 2048) :
    ∑ r : Fin 512, xblk V c t (ix3 (0 : Fin 1) r j) * xblk V c t (ix3 (0 : Fin 1) r j)
      = blockSum (squares (V c main_arg0)) (batchOf t.val t.isLt) j (t.val % 4) := by
  unfold blockSum
  rw [dif_pos (Nat.mod_lt _ (by decide))]
  refine Finset.sum_congr rfl fun r _ => ?_
  rw [read_x V c t r j]
  rfl

/-! ## The running sums, by induction on the point -/

/-- A batch's first point leaves the first block's sums. -/
theorem first1 (c : Dev nD) (t : Fin cfg0.N) (h0 : t.val % 4 = 0) (j : Fin 2048) :
    (outsAt0 V c t.val t.isLt).1 (ix3 (0 : Fin 1) (0 : Fin 1) j)
      = ∑ k ∈ Finset.range (t.val % 4 + 1), blockSum (V c main_arg0) (batchOf t.val t.isLt) j k := by
  rw [outsAt0_A V c t h0]
  dsimp only
  refine (congrFun (out_A_1 (F := Ideal) c (grid0.coords t) (ms0_0 t) (hs0_0 t) (ms0_1 t) (hs0_1 t) (ms0_2 t) (hs0_2 t)
    ((hcond0_0 t).mpr h0) (xblk V c t)) (ix3 (0 : Fin 1) (0 : Fin 1) j)).trans ?_
  rw [upd1_apply, zero1_apply, zero_add, tile_sum V c t j, h0]
  simp only [Finset.sum_range_succ, Finset.sum_range_zero, zero_add]

theorem first2 (c : Dev nD) (t : Fin cfg0.N) (h0 : t.val % 4 = 0) (j : Fin 2048) :
    (outsAt0 V c t.val t.isLt).2 (ix3 (0 : Fin 1) (0 : Fin 1) j)
      = ∑ k ∈ Finset.range (t.val % 4 + 1), blockSum (squares (V c main_arg0)) (batchOf t.val t.isLt) j k := by
  rw [outsAt0_A V c t h0]
  dsimp only
  refine (congrFun (out_A_2 (F := Ideal) c (grid0.coords t) (ms0_0 t) (hs0_0 t) (ms0_1 t) (hs0_1 t) (ms0_2 t) (hs0_2 t)
    ((hcond0_0 t).mpr h0) (xblk V c t)) (ix3 (0 : Fin 1) (0 : Fin 1) j)).trans ?_
  rw [upd2_apply, zero2_apply, zero_add, tile_sumSq V c t j, h0]
  simp only [Finset.sum_range_succ, Finset.sum_range_zero, zero_add]

/-- A later point adds its block's sums to what the point before left. -/
theorem later1 (c : Dev nD) (t : Fin cfg0.N) (h0 : ¬t.val % 4 = 0) (j : Fin 2048)
    (ih : (outsAt0 V c (t.val - 1) (Nat.lt_of_le_of_lt (Nat.sub_le _ _) t.isLt)).1 (ix3 (0 : Fin 1) (0 : Fin 1) j)
      = ∑ k ∈ Finset.range ((t.val - 1) % 4 + 1), blockSum (V c main_arg0) (batchOf (t.val - 1) (Nat.lt_of_le_of_lt (Nat.sub_le _ _) t.isLt)) j k) :
    (outsAt0 V c t.val t.isLt).1 (ix3 (0 : Fin 1) (0 : Fin 1) j)
      = ∑ k ∈ Finset.range (t.val % 4 + 1), blockSum (V c main_arg0) (batchOf t.val t.isLt) j k := by
  rw [outsAt0_B V c t h0]
  dsimp only
  refine (congrFun (out_B_1 (F := Ideal) c (grid0.coords t) (ms0_0 t) (hs0_0 t) (ms0_1 t) (hs0_1 t) (ms0_2 t) (hs0_2 t)
    (fun h => h0 ((hcond0_0 t).mp h)) (xblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) (0 : Fin 1) j)).trans ?_
  rw [upd1_apply, ih, tile_sum V c t j]
  have e1 : (t.val - 1) % 4 + 1 = t.val % 4 := by omega
  have e2 : batchOf (t.val - 1) (Nat.lt_of_le_of_lt (Nat.sub_le _ _) t.isLt) = batchOf t.val t.isLt :=
    Fin.ext (by show (t.val - 1) / 4 = t.val / 4; omega)
  rw [e1, e2, Finset.sum_range_succ]

theorem later2 (c : Dev nD) (t : Fin cfg0.N) (h0 : ¬t.val % 4 = 0) (j : Fin 2048)
    (ih : (outsAt0 V c (t.val - 1) (Nat.lt_of_le_of_lt (Nat.sub_le _ _) t.isLt)).2 (ix3 (0 : Fin 1) (0 : Fin 1) j)
      = ∑ k ∈ Finset.range ((t.val - 1) % 4 + 1), blockSum (squares (V c main_arg0)) (batchOf (t.val - 1) (Nat.lt_of_le_of_lt (Nat.sub_le _ _) t.isLt)) j k) :
    (outsAt0 V c t.val t.isLt).2 (ix3 (0 : Fin 1) (0 : Fin 1) j)
      = ∑ k ∈ Finset.range (t.val % 4 + 1), blockSum (squares (V c main_arg0)) (batchOf t.val t.isLt) j k := by
  rw [outsAt0_B V c t h0]
  dsimp only
  refine (congrFun (out_B_2 (F := Ideal) c (grid0.coords t) (ms0_0 t) (hs0_0 t) (ms0_1 t) (hs0_1 t) (ms0_2 t) (hs0_2 t)
    (fun h => h0 ((hcond0_0 t).mp h)) (xblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) (0 : Fin 1) j)).trans ?_
  rw [upd2_apply, ih, tile_sumSq V c t j]
  have e1 : (t.val - 1) % 4 + 1 = t.val % 4 := by omega
  have e2 : batchOf (t.val - 1) (Nat.lt_of_le_of_lt (Nat.sub_le _ _) t.isLt) = batchOf t.val t.isLt :=
    Fin.ext (by show (t.val - 1) / 4 = t.val / 4; omega)
  rw [e1, e2, Finset.sum_range_succ]

/-- After point n the sum's block holds, at column j, the sum of its batch's first n % 4 + 1 block sums. -/
theorem acc1_eq (c : Dev nD) : ∀ (n : ℕ) (h : n < cfg0.N) (j : Fin 2048),
    (outsAt0 V c n h).1 (ix3 (0 : Fin 1) (0 : Fin 1) j)
      = ∑ k ∈ Finset.range (n % 4 + 1), blockSum (V c main_arg0) (batchOf n h) j k := by
  intro n
  induction n with
  | zero => intro h j; exact first1 V c ⟨0, h⟩ rfl j
  | succ n ih =>
    intro h j
    by_cases h0 : (n + 1) % 4 = 0
    · exact first1 V c ⟨n + 1, h⟩ h0 j
    · exact later1 V c ⟨n + 1, h⟩ h0 j (ih _ j)

theorem acc2_eq (c : Dev nD) : ∀ (n : ℕ) (h : n < cfg0.N) (j : Fin 2048),
    (outsAt0 V c n h).2 (ix3 (0 : Fin 1) (0 : Fin 1) j)
      = ∑ k ∈ Finset.range (n % 4 + 1), blockSum (squares (V c main_arg0)) (batchOf n h) j k := by
  intro n
  induction n with
  | zero => intro h j; exact first2 V c ⟨0, h⟩ rfl j
  | succ n ih =>
    intro h j
    by_cases h0 : (n + 1) % 4 = 0
    · exact first2 V c ⟨n + 1, h⟩ h0 j
    · exact later2 V c ⟨n + 1, h⟩ h0 j (ih _ j)

/-! ## What is written back, and the arrays after the region -/

/-- Where point t's output block sits: row t / 4 of the statistics array. -/
theorem emb1 (t : Fin cfg0.N) (j : Fin 2048) :
    ((cfg0.win 1).blk t).view.emb (ix3 (0 : Fin 1) (0 : Fin 1) j) = ix3 (batchOf t.val t.isLt) (0 : Fin 1) j := by
  obtain ⟨-, -, -, e0, e1, e2, -⟩ := idx_facts t
  funext a
  apply Fin.ext
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 2048 + 1 * j.val = j.val; omega

theorem emb2 (t : Fin cfg0.N) (j : Fin 2048) :
    ((cfg0.win 2).blk t).view.emb (ix3 (0 : Fin 1) (0 : Fin 1) j) = ix3 (batchOf t.val t.isLt) (0 : Fin 1) j := by
  obtain ⟨-, -, -, -, -, -, e0, e1, e2⟩ := idx_facts t
  funext a
  apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 2048 + 1 * j.val = j.val; omega

/-- A batch's fourth point writes back that batch's row of the column sums. -/
theorem flushed1_eq (c : Dev nD) (t : Fin cfg0.N) (hf : (cfg0.win 1).flush t = true) :
    (dat0 V c).flushed 1 t = ((cfg0.win 1).blk t).view.read (Elt Ideal) (colArr (V c main_arg0)) := by
  have h3 : t.val % 4 = 3 := (flush0_1 t).mp hf
  show (cfg0.win 1).cut (grid0.coords t) ((dat0 V c).after 1 t) = _
  rw [after0_1]
  funext y
  obtain ⟨u, v, j, rfl⟩ : ∃ (u v : Fin 1) (j : Fin 2048), y = ix3 u v j := ⟨y 0, y 1, y 2, eq_ix3 y⟩
  obtain rfl : u = 0 := Subsingleton.elim _ _
  obtain rfl : v = 0 := Subsingleton.elim _ _
  refine (acc1_eq V c t.val t.isLt j).trans ?_
  rw [h3, View.read_apply, emb1 t j]
  exact sum_blockSum _ _ _

theorem flushed2_eq (c : Dev nD) (t : Fin cfg0.N) (hf : (cfg0.win 2).flush t = true) :
    (dat0 V c).flushed 2 t = ((cfg0.win 2).blk t).view.read (Elt Ideal) (colArr (squares (V c main_arg0))) := by
  have h3 : t.val % 4 = 3 := (flush0_2 t).mp hf
  show (cfg0.win 2).cut (grid0.coords t) ((dat0 V c).after 2 t) = _
  rw [after0_2]
  funext y
  obtain ⟨u, v, j, rfl⟩ : ∃ (u v : Fin 1) (j : Fin 2048), y = ix3 u v j := ⟨y 0, y 1, y 2, eq_ix3 y⟩
  obtain rfl : u = 0 := Subsingleton.elim _ _
  obtain rfl : v = 0 := Subsingleton.elim _ _
  refine (acc2_eq V c t.val t.isLt j).trans ?_
  rw [h3, View.read_apply, emb2 t j]
  exact sum_blockSum _ _ _

/-- An index of a statistics array is in point t's block iff each coordinate is in the block's range on its axis. -/
theorem mem_blk1 (t : Fin cfg0.N) (i : S8x1x2048.Idx) :
    i ∈ ((cfg0.win 1).blk t).view.set ↔ ∀ a : Fin 3, win0_1.index t a * S1x1x2048.size a ≤ (i a).val ∧ (i a).val < win0_1.index t a * S1x1x2048.size a + S1x1x2048.size a := by
  show i ∈ ((View.whole main_v0_0).slice (win0_1.rect t)).set ↔ _
  rw [View.set_slice_whole, Rect.mem_set_unit]
  exact Iff.rfl

theorem mem_blk2 (t : Fin cfg0.N) (i : S8x1x2048.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v0_1).slice (win0_2.rect t)).set ↔ _
  rw [View.set_slice_whole, Rect.mem_set_unit]
  exact Iff.rfl

/-- Every batch has its fourth point. -/
theorem idx_onto : ∀ q0 : Fin 8, ∃ t : Fin cfg0.N, t.val % 4 = 3 ∧ win0_1.index t = ![q0.val, 0, 0] ∧ win0_2.index t = ![q0.val, 0, 0] :=
  (by decide +kernel : ∀ q0 : Fin 8, ∃ t : Fin grid0.N, t.val % 4 = 3 ∧ win0_1.index t = ![q0.val, 0, 0] ∧ win0_2.index t = ![q0.val, 0, 0])

/-- The eight flushed blocks cover a statistics array: (b, 0, j) lies in batch b's row. -/
theorem cover1 (i : S8x1x2048.Idx) : ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 2048 := (i 2).isLt
  obtain ⟨t, h3, ht, -⟩ := idx_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, (flush0_1 t).mpr h3, ?_⟩
  rw [mem_blk1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 2048 ≤ (i 2).val ∧ (i 2).val < win0_1.index t (2 : Fin 3) * 2048 + 2048; omega

theorem cover2 (i : S8x1x2048.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 2048 := (i 2).isLt
  obtain ⟨t, h3, -, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, (flush0_2 t).mpr h3, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- THE ARRAYS after the region: the column sums, and the column sums of squares, of the x the region finds. -/
theorem final1 (c : Dev nD) : (dat0 V c).arrAt 1 cfg0.N = colArr (V c main_arg0) :=
  (dat0 V c).arrAt_eq_of_cover 1 (colArr (V c main_arg0)) (flushed1_eq V c) cover1

theorem final2 (c : Dev nD) : (dat0 V c).arrAt 2 cfg0.N = colArr (squares (V c main_arg0)) :=
  (dat0 V c).arrAt_eq_of_cover 2 (colArr (squares (V c main_arg0))) (flushed2_eq V c) cover2

end Cert.KernelIdeal.ColStats

end
-- ==== Proof.Compute.lean ====
/- The second kernel region: from the array x and the two column-statistics arrays it finds, it writes the array
   whose entry (b, n, j) is min(loo(R(b,n), R₂(b,n), v), loo(sc(b,0,j), ssc(b,0,j), v)), v = x(b, n, j).

   A grid point t of the 8 × 8 grid handles batch b = t / 8 and the block of 256 rows nb = t % 8: it reads rows
   256·nb … 256·nb + 255 of batch b of x (all 2048 columns, so a row's sum over the block IS the row's sum), and row b
   of each statistics array. Its body is pointwise but for the two row sums. The 64 blocks tile the array, so the
   array after the region is that one function of what the region found. Nothing here needs finiteness. -/
import proofs.«137009_j40870908789394_1_alg».proof.Proof.Gen.KernelIdeal.Frame
import proofs.«137009_j40870908789394_1_alg».proof.Proof.Spec
import proofs.«137009_j40870908789394_1_alg».proof.Proof.Layout
import Idealize.ShloMosaic.Lib.Pipeline.Value

noncomputable section

open scoped BigOperators

namespace Cert.KernelIdeal.Compute

open Cert.KernelIdeal Cert.KernelIdeal.Gen Cert.LooVar Cert.LooVar.Layout Cert.Keepdims
open Idealize.ShloMosaic Idealize.ShloMosaic.TcCoe Idealize.ShloMosaic.ValueIdx Idealize.SL.Sem
open Idealize.ShloMosaic.Pipeline (Dat)

/-- The entry at (b, n, j) when the column statistics are GIVEN as arrays `sc`, `ssc`. -/
def looMinWith (x : Arr) (sc ssc : Cols) (b : Fin 8) (n j : Fin 2048) : EReal :=
  min (loo (rowSum x b n) (rowSum (squares x) b n) (x (ix3 b n j)))
    (loo (sc (ix3 b (0 : Fin 1) j)) (ssc (ix3 b (0 : Fin 1) j)) (x (ix3 b n j)))

/-- The whole array of those entries. -/
def blockResult (x : Arr) (sc ssc : Cols) : Arr := fun i => looMinWith x sc ssc (i 0) (i 1) (i 2)

/-- With the true column sums for statistics, it is the specification's entry. -/
theorem looMinWith_colSum (x : Arr) (sc ssc : Cols) (b : Fin 8) (n j : Fin 2048)
    (h1 : sc (ix3 b (0 : Fin 1) j) = colSum x b j) (h2 : ssc (ix3 b (0 : Fin 1) j) = colSum (squares x) b j) :
    looMinWith x sc ssc b n j = looMin x b n j := by
  unfold looMinWith looMin
  rw [h1, h2]

/-- The body's stored value at (0, r, j) of a block: the two leave-one-out variances from the block's row r and from
    the statistics' column j, and their minimum. -/
theorem pay_apply (x0 : Vec Ideal S1x256x2048 .f32) (x1 x2 : Vec Ideal S1x1x2048 .f32) (r : Fin 256) (j : Fin 2048) :
    k1_pay1 (F := Ideal) x0 x1 x2 (ix3 (0 : Fin 1) r j)
      = min (loo (∑ q : Fin 2048, x0 (ix3 (0 : Fin 1) r q)) (∑ q : Fin 2048, x0 (ix3 (0 : Fin 1) r q) * x0 (ix3 (0 : Fin 1) r q)) (x0 (ix3 (0 : Fin 1) r j)))
          (loo (x1 (ix3 (0 : Fin 1) (0 : Fin 1) j)) (x2 (ix3 (0 : Fin 1) (0 : Fin 1) j)) (x0 (ix3 (0 : Fin 1) r j))) := by
  unfold k1_pay1
  dsimp only
  simp only [minimumf_apply, subf_apply, mulf_apply, broadcast_apply]
  rw [broadcastTo_ab1_abc_apply, broadcastTo_ab1_abc_apply, shapeCast_ab_ab1_apply, shapeCast_ab_ab1_apply,
    sum_last3_zero, sum_last3_zero, broadcastTo_a1c_abc_apply, broadcastTo_a1c_abc_apply, shapeCast_self, shapeCast_self]
  rfl

/-- Row `r` of the `nb`-th block of 256 consecutive rows. -/
abbrev tileRow (nb : Fin 8) (r : Fin 256) : Fin 2048 := Cert.BlockSum.pos (by decide : 8 * 256 = 2048) nb r

/-- A block that holds rows 256·nb … of batch b of x, beside row b of the statistics, stores `looMinWith`. -/
theorem tile_value (x : Arr) (sc ssc : Cols) (b nb : Fin 8)
    (x0 : Vec Ideal S1x256x2048 .f32) (x1 x2 : Vec Ideal S1x1x2048 .f32)
    (h0 : ∀ (r : Fin 256) (q : Fin 2048), x0 (ix3 (0 : Fin 1) r q) = x (ix3 b (tileRow nb r) q))
    (h1 : ∀ q : Fin 2048, x1 (ix3 (0 : Fin 1) (0 : Fin 1) q) = sc (ix3 b (0 : Fin 1) q))
    (h2 : ∀ q : Fin 2048, x2 (ix3 (0 : Fin 1) (0 : Fin 1) q) = ssc (ix3 b (0 : Fin 1) q))
    (r : Fin 256) (j : Fin 2048) :
    k1_pay1 (F := Ideal) x0 x1 x2 (ix3 (0 : Fin 1) r j) = looMinWith x sc ssc b (tileRow nb r) j := by
  rw [pay_apply]
  unfold looMinWith rowSum squares
  simp only [h0, h1, h2]

/-! ## The region's windows -/

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: point t is batch t / 8 and row block t % 8 for x and for the output, and
    batch t / 8 for the two statistics arrays. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-- The batch and the row block of point t. -/
def batchOf (t : Fin cfg1.N) : Fin 8 := ⟨t.val / 8, by
  have hN : t.val < 64 := lt_of_lt_of_eq t.isLt (show cfg1.N = 64 from N_1)
  omega⟩
def tileOf (t : Fin cfg1.N) : Fin 8 := ⟨t.val % 8, Nat.mod_lt _ (by decide)⟩

/-- Point t's block of x, at (0, r, q): x at batch t / 8, row 256·(t % 8) + r, column q. -/
theorem read_x (c : Dev nD) (t : Fin cfg1.N) (r : Fin 256) (q : Fin 2048) :
    (iblk1 V c 0 t : Vec Ideal S1x256x2048 .f32) (ix3 (0 : Fin 1) r q)
      = (V c main_arg0 : Arr) (ix3 (batchOf t) (tileRow (tileOf t) r) q) := by
  obtain ⟨e0, e1, e2, -⟩ := idx_facts t
  unfold iblk1
  rw [View.read_apply]
  show (V c main_arg0 : Arr) _ = _
  congr 1
  funext a
  apply Fin.ext
  match a with
  | ⟨0, _⟩ => show win1_0.index t (0 : Fin 3) * 1 + 1 * 0 = t.val / 8; omega
  | ⟨1, _⟩ => show win1_0.index t (1 : Fin 3) * 256 + 1 * r.val = 256 * (t.val % 8) + r.val; omega
  | ⟨2, _⟩ => show win1_0.index t (2 : Fin 3) * 2048 + 1 * q.val = q.val; omega

/-- Point t's block of the first statistics array, at (0, 0, q): its row t / 8 at column q. -/
theorem read_sc (c : Dev nD) (t : Fin cfg1.N) (q : Fin 2048) :
    (iblk1 V c 1 t : Vec Ideal S1x1x2048 .f32) (ix3 (0 : Fin 1) (0 : Fin 1) q)
      = (V c main_v0_0 : Cols) (ix3 (batchOf t) (0 : Fin 1) q) := by
  obtain ⟨-, -, -, e0, e1, e2, -⟩ := idx_facts t
  unfold iblk1
  rw [View.read_apply]
  show (V c main_v0_0 : Cols) _ = _
  congr 1
  funext a
  apply Fin.ext
  match a with
  | ⟨0, _⟩ => show win1_1.index t (0 : Fin 3) * 1 + 1 * 0 = t.val / 8; omega
  | ⟨1, _⟩ => show win1_1.index t (1 : Fin 3) * 1 + 1 * 0 = 0; omega
  | ⟨2, _⟩ => show win1_1.index t (2 : Fin 3) * 2048 + 1 * q.val = q.val; omega

/-- The same for the second statistics array. -/
theorem read_ssc (c : Dev nD) (t : Fin cfg1.N) (q : Fin 2048) :
    (iblk1 V c 2 t : Vec Ideal S1x1x2048 .f32) (ix3 (0 : Fin 1) (0 : Fin 1) q)
      = (V c main_v0_1 : Cols) (ix3 (batchOf t) (0 : Fin 1) q) := by
  obtain ⟨-, -, -, -, -, -, e0, e1, e2, -⟩ := idx_facts t
  unfold iblk1
  rw [View.read_apply]
  show (V c main_v0_1 : Cols) _ = _
  congr 1
  funext a
  apply Fin.ext
  match a with
  | ⟨0, _⟩ => show win1_2.index t (0 : Fin 3) * 1 + 1 * 0 = t.val / 8; omega
  | ⟨1, _⟩ => show win1_2.index t (1 : Fin 3) * 1 + 1 * 0 = 0; omega
  | ⟨2, _⟩ => show win1_2.index t (2 : Fin 3) * 2048 + 1 * q.val = q.val; omega

/-- WHAT POINT t WRITES BACK is block t of `blockResult` of the three arrays the region finds. -/
theorem flushed_eq (c : Dev nD) (t : Fin cfg1.N) :
    (dat1 V c).flushed 3 t
      = ((cfg1.win 3).blk t).view.read (Elt Ideal) (blockResult (V c main_arg0) (V c main_v0_0) (V c main_v0_1)) := by
  show (cfg1.win 3).cut (grid1.coords t) ((dat1 V c).after 3 t) = _
  rw [after1_3]
  unfold out1_3
  rw [View.canon_unit_zero hz3]
  simp only [View.ld_unit_zero (S := S1x256x2048) hz3, View.ld_unit_zero (S := S1x1x2048) hz3]
  obtain ⟨-, -, -, -, -, -, -, -, -, e0, e1, e2⟩ := idx_facts t
  funext y
  obtain ⟨u, r, j, rfl⟩ : ∃ (u : Fin 1) (r : Fin 256) (j : Fin 2048), y = ix3 u r j := ⟨y 0, y 1, y 2, eq_ix3 y⟩
  obtain rfl : u = 0 := Subsingleton.elim _ _
  refine (tile_value (V c main_arg0) (V c main_v0_0) (V c main_v0_1) (batchOf t) (tileOf t)
    (iblk1 V c 0 t) (iblk1 V c 1 t) (iblk1 V c 2 t) (read_x V c t) (read_sc V c t) (read_ssc V c t) r j).trans ?_
  rw [View.read_apply]
  have hi : ((cfg1.win 3).blk t).view.emb (ix3 (0 : Fin 1) r j) = ix3 (batchOf t) (tileRow (tileOf t) r) j := by
    funext a
    apply Fin.ext
    match a with
    | ⟨0, _⟩ => show win1_3.index t (0 : Fin 3) * 1 + 1 * 0 = t.val / 8; omega
    | ⟨1, _⟩ => show win1_3.index t (1 : Fin 3) * 256 + 1 * r.val = 256 * (t.val % 8) + r.val; omega
    | ⟨2, _⟩ => show win1_3.index t (2 : Fin 3) * 2048 + 1 * j.val = j.val; omega
  rw [hi]
  rfl

/-- An index of the array is in point t's block iff each coordinate is in the block's range on its axis. -/
theorem mem_blk (t : Fin cfg1.N) (i : S8x2048x2048.Idx) :
    i ∈ ((cfg1.win 3).blk t).view.set ↔ ∀ a : Fin 3, win1_3.index t a * S1x256x2048.size a ≤ (i a).val ∧ (i a).val < win1_3.index t a * S1x256x2048.size a + S1x256x2048.size a := by
  show i ∈ ((View.whole main_v1).slice (win1_3.rect t)).set ↔ _
  rw [View.set_slice_whole, Rect.mem_set_unit]
  exact Iff.rfl

/-- Every (batch, row block) is some point's. -/
theorem idx_onto : ∀ (q0 q1 : Fin 8), ∃ t : Fin cfg1.N, win1_3.index t = ![q0.val, q1.val, 0] :=
  (by decide +kernel : ∀ (q0 q1 : Fin 8), ∃ t : Fin grid1.N, win1_3.index t = ![q0.val, q1.val, 0])

/-- The 64 blocks cover the array: (b, n, j) lies in the block of batch b and row block n / 256. -/
theorem cover (i : S8x2048x2048.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 2048 ≤ (i 2).val ∧ (i 2).val < win1_3.index t (2 : Fin 3) * 2048 + 2048; omega

/-- THE ARRAY after the region: `blockResult` of the three arrays the region finds. -/
theorem final (c : Dev nD) :
    (dat1 V c).arrAt 3 cfg1.N = blockResult (V c main_arg0) (V c main_v0_0) (V c main_v0_1) :=
  (dat1 V c).arrAt_eq_of_cover 3 (blockResult (V c main_arg0) (V c main_v0_0) (V c main_v0_1))
    (fun t _ => flushed_eq V c t) (cover)

end Cert.KernelIdeal.Compute

end
-- ==== Proof.KernelValue.lean ====
/- The idealized kernel's result, as a function of its argument.

   The first region leaves the column sums and the column sums of squares of x in its two arrays and x itself
   untouched; the second region finds exactly those three arrays and leaves, in its output, the smaller of the two
   leave-one-out variances at every (b, n, j); the two closing host operations reverse the rows and add a trailing axis
   of size one. So the result at (b, n, j, 0) is the specification's entry at row 2047 - n. -/
import proofs.«137009_j40870908789394_1_alg».proof.Proof.KernelRun
import proofs.«137009_j40870908789394_1_alg».proof.Proof.ColStats
import proofs.«137009_j40870908789394_1_alg».proof.Proof.Compute
import Idealize.ShloMosaic.Lib.StableHlo.Run

noncomputable section

open scoped BigOperators

namespace Cert.KernelIdeal.KernelValue

open Cert.KernelIdeal Cert.KernelIdeal.Gen Cert.LooVar Cert.KernelIdeal.Compute
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The argument as launched, as an array. -/
abbrev arg (c : Dev nD) : Arr := m ((c : Thread nD τ).loc main_arg0)

/-! ## What the second region finds -/

/-- x is as launched: the first region only reads it. -/
theorem found_x (c : Dev nD) : V1 m ρ c main_arg0 = arg m c :=
  (W1_arr m ρ c 0).trans (((dat0 (V0 m ρ) c).arrAt_in 0 rfl _).trans (A_eq0 (V0 m ρ) c 0))

/-- The first statistics array holds x's column sums. -/
theorem found_sc (c : Dev nD) : V1 m ρ c main_v0_0 = colArr (arg m c) :=
  (W1_arr m ρ c 1).trans (ColStats.final1 (V0 m ρ) c)

/-- The second holds the column sums of x's squares. -/
theorem found_ssc (c : Dev nD) : V1 m ρ c main_v0_1 = colArr (squares (arg m c)) :=
  (W1_arr m ρ c 2).trans (ColStats.final2 (V0 m ρ) c)

/-! ## The second region's output -/

/-- With the true column statistics, the block formula is the specification's entry, unreversed. -/
theorem blockResult_cols (x : Arr) :
    blockResult x (colArr x) (colArr (squares x)) = fun i => looMin x (i 0) (i 1) (i 2) := by
  funext i
  unfold blockResult
  exact looMinWith_colSum x _ _ _ _ _ rfl rfl

/-- After the second region its output array holds the smaller leave-one-out variance at every entry. -/
theorem found_out (c : Dev nD) :
    W2 m ρ c (Proc.devRef .tc main_v1) = fun i => looMin (arg m c) (i 0) (i 1) (i 2) := by
  refine (W2_arr m ρ c 3).trans ((Compute.final (V1 m ρ) c).trans ?_)
  rw [found_x, found_sc, found_ssc, blockResult_cols]
  rfl

/-! ## The two closing host operations, read at an index -/

/-- Reversing the rows reads row 2047 - n. -/
theorem reverse_rows_apply (y : Arr) (b : Fin 8) (n j : Fin 2048) :
    Host.reverse (s := S8x2048x2048) [1] y (ix3 b n j) = y (ix3 b n.rev j) := by
  unfold Host.reverse
  exact congrArg y (funext fun a => by match a with | ⟨0, _⟩ => rfl | ⟨1, _⟩ => rfl | ⟨2, _⟩ => rfl)

/-- Adding the trailing axis of size one reads the same entry. -/
theorem unit_axis_apply (y : Arr) (b : Fin 8) (n j : Fin 2048) (u : Fin 1) :
    broadcastInDim S8x2048x2048x1 ![0, 1, 2] bcast_S8x2048x2048_S8x2048x2048x1_0_1_2 y (ix4 b n j u) = y (ix3 b n j) :=
  broadcastInDim_apply _ bcast_S8x2048x2048_S8x2048x2048x1_0_1_2 y (ix4 b n j u) (ix3 b n j) (fun a => match a with
    | ⟨0, _⟩ => by show b.val = if (8 : Nat) = 1 then 0 else b.val; rw [if_neg (by decide)]
    | ⟨1, _⟩ => by show n.val = if (2048 : Nat) = 1 then 0 else n.val; rw [if_neg (by decide)]
    | ⟨2, _⟩ => by show j.val = if (2048 : Nat) = 1 then 0 else j.val; rw [if_neg (by decide)])

/-! ## The result -/

/-- The result array after the run is the specification of the argument. -/
theorem result_eq (c : Dev nD) : W3 m ρ c (Proc.devRef .tc main_v3) = result (arg m c) := by
  show StableHlo.after hostOps2 (W2 m ρ c) (Proc.devRef .tc main_v3) = _
  after_results
  rw [found_out]
  funext i
  obtain ⟨b, n, j, u, rfl⟩ : ∃ (b : Fin 8) (n j : Fin 2048) (u : Fin 1), i = ix4 b n j u := ⟨i 0, i 1, i 2, i 3, eq_ix4 i⟩
  rw [unit_axis_apply, reverse_rows_apply]
  rfl

/-- The run, read: every weakly fair execution terminates with the result array at the specification of the argument
    and the argument unchanged. -/
theorem run : θ_run defs (onTc (τ := τ) (main (F := Ideal))) ⟨m, fun _ => 0, ρ⟩ (fun r => ∀ c : Dev nD,
      r.2.mem ((c.tc : Thread nD τ).loc main_v3) = result (m ((c.tc : Thread nD τ).loc main_arg0))
      ∧ r.2.mem ((c.tc : Thread nD τ).loc main_arg0) = m ((c.tc : Thread nD τ).loc main_arg0)) :=
  (θ_run defs _ _).mono (fun r h c => ⟨(h c).1.trans (result_eq m ρ c), (h c).2⟩) (RunValue.run_result m ρ)

end Cert.KernelIdeal.KernelValue

end
-- ==== Proof.RefImports.lean ====
import proofs.«137009_j40870908789394_1_alg».proof.Proof.Gen.ReferenceIdeal.Run
import proofs.«137009_j40870908789394_1_alg».proof.Proof.Gen.ReferenceIdeal.Read
-- ==== Proof.RefSpec.lean ====
/- The reference program computes the specification.

   Its run is a straight line of host operations; read one operation at a time: the two sums over the last axis are the
   row sums and the two over the middle axis the column sums, each with the zero word added in front (0 + s = s);
   the keepdims broadcasts read a sum back at every entry of its row or column; the pointwise operations are the
   leave-one-out variance in the specification's order, with the same scale word; the trailing unit axis is added and
   then the rows are reversed, which reads row 2047 - n. -/
import proofs.«137009_j40870908789394_1_alg».proof.Proof.RefImports
import proofs.«137009_j40870908789394_1_alg».proof.Proof.Spec

noncomputable section

open scoped BigOperators

namespace Cert.ReferenceIdeal.RefValue

open Cert.ReferenceIdeal Cert.ReferenceIdeal.Read Cert.LooVar
open Idealize.ShloMosaic Idealize.ShloMosaic.ValueIdx

/-! ## The four sums -/

/-- The sum over the last axis, at (b, n), is row (b, n)'s sum. -/
theorem rowSum_at (x : Arr) (b : Fin 8) (n : Fin 2048) : val_main_v1 (F := Ideal) x (ix2 b n) = rowSum x b n := by
  rw [val_main_v1_apply]
  show Ideal.ofBits .f32 0x00000000#32 + _ = _
  rw [Ideal.ofBits_zero_f32, zero_add]
  unfold rowSum
  refine Finset.sum_congr rfl fun k _ => congrArg x (funext fun a => ?_)
  match a with
  | ⟨0, _⟩ => rfl
  | ⟨1, _⟩ => rfl
  | ⟨2, _⟩ => rfl

/-- The sum of squares over the last axis, at (b, n). -/
theorem rowSumSq_at (x : Arr) (b : Fin 8) (n : Fin 2048) : val_main_v3 (F := Ideal) x (ix2 b n) = rowSum (squares x) b n := by
  rw [val_main_v3_apply]
  show Ideal.ofBits .f32 0x00000000#32 + _ = _
  rw [Ideal.ofBits_zero_f32, zero_add]
  unfold rowSum
  refine Finset.sum_congr rfl fun k _ => congrArg (squares x) (funext fun a => ?_)
  match a with
  | ⟨0, _⟩ => rfl
  | ⟨1, _⟩ => rfl
  | ⟨2, _⟩ => rfl

/-- The sum over the middle axis, at (b, j), is column (b, j)'s sum. -/
theorem colSum_at (x : Arr) (b : Fin 8) (j : Fin 2048) : val_main_v15 (F := Ideal) x (ix2 b j) = colSum x b j := by
  rw [val_main_v15_apply]
  show Ideal.ofBits .f32 0x00000000#32 + _ = _
  rw [Ideal.ofBits_zero_f32, zero_add]
  unfold colSum
  refine Finset.sum_congr rfl fun k _ => congrArg x (funext fun a => ?_)
  match a with
  | ⟨0, _⟩ => rfl
  | ⟨1, _⟩ => rfl
  | ⟨2, _⟩ => rfl

/-- The sum of squares over the middle axis, at (b, j). -/
theorem colSumSq_at (x : Arr) (b : Fin 8) (j : Fin 2048) : val_main_v17 (F := Ideal) x (ix2 b j) = colSum (squares x) b j := by
  rw [val_main_v17_apply]
  show Ideal.ofBits .f32 0x00000000#32 + _ = _
  rw [Ideal.ofBits_zero_f32, zero_add]
  unfold colSum
  refine Finset.sum_congr rfl fun k _ => congrArg (squares x) (funext fun a => ?_)
  match a with
  | ⟨0, _⟩ => rfl
  | ⟨1, _⟩ => rfl
  | ⟨2, _⟩ => rfl

/-! ## Where the keepdims broadcasts read -/

theorem idx_row (b : Fin 8) (n j : Fin 2048) : idx_main_v2 (idx_main_v5 (ix3 b n j)) = ix2 b n :=
  funext fun a => by match a with | ⟨0, _⟩ => rfl | ⟨1, _⟩ => rfl
theorem idx_rowSq (b : Fin 8) (n j : Fin 2048) : idx_main_v4 (idx_main_v9 (ix3 b n j)) = ix2 b n :=
  funext fun a => by match a with | ⟨0, _⟩ => rfl | ⟨1, _⟩ => rfl
theorem idx_col (b : Fin 8) (n j : Fin 2048) : idx_main_v16 (idx_main_v19 (ix3 b n j)) = ix2 b j :=
  funext fun a => by match a with | ⟨0, _⟩ => rfl | ⟨1, _⟩ => rfl
theorem idx_colSq (b : Fin 8) (n j : Fin 2048) : idx_main_v18 (idx_main_v23 (ix3 b n j)) = ix2 b j :=
  funext fun a => by match a with | ⟨0, _⟩ => rfl | ⟨1, _⟩ => rfl
theorem idx_unit (b : Fin 8) (n j : Fin 2048) (u : Fin 1) : idx_main_v30 (ix4 b n j u) = ix3 b n j :=
  funext fun a => by match a with | ⟨0, _⟩ => rfl | ⟨1, _⟩ => rfl | ⟨2, _⟩ => rfl

/-! ## The two variances -/

/-- The row side at (b, n, j): the leave-one-out variance from row (b, n)'s sums. -/
theorem rowVar_at (x : Arr) (b : Fin 8) (n j : Fin 2048) :
    val_main_v14 (F := Ideal) x (ix3 b n j) = loo (rowSum x b n) (rowSum (squares x) b n) (x (ix3 b n j)) := by
  simp only [val_main_v14_apply, val_main_v12_apply, val_main_v13_apply, val_main_v10_apply, val_main_v8_apply,
    val_main_v6_apply, val_main_v9_apply, val_main_v5_apply, val_main_v4_apply, val_main_v2_apply, val_main_v11_apply,
    val_main_v7_apply, val_main_cst_1_apply, val_main_cst_2_apply, val_main_v0_apply, idx_row, idx_rowSq,
    rowSum_at, rowSumSq_at]
  rfl

/-- The column side at (b, n, j): the leave-one-out variance from column (b, j)'s sums. -/
theorem colVar_at (x : Arr) (b : Fin 8) (n j : Fin 2048) :
    val_main_v28 (F := Ideal) x (ix3 b n j) = loo (colSum x b j) (colSum (squares x) b j) (x (ix3 b n j)) := by
  simp only [val_main_v28_apply, val_main_v26_apply, val_main_v27_apply, val_main_v24_apply, val_main_v22_apply,
    val_main_v20_apply, val_main_v23_apply, val_main_v19_apply, val_main_v18_apply, val_main_v16_apply, val_main_v25_apply,
    val_main_v21_apply, val_main_cst_5_apply, val_main_cst_6_apply, val_main_v0_apply, idx_col, idx_colSq,
    colSum_at, colSumSq_at]
  rfl

/-! ## The result -/

/-- The reference's result is the specification of its argument. -/
theorem result_eq (x : Arr) : val_main_v31 (F := Ideal) x = result x := by
  funext i
  obtain ⟨b, n, j, u, rfl⟩ : ∃ (b : Fin 8) (n j : Fin 2048) (u : Fin 1), i = ix4 b n j u := ⟨i 0, i 1, i 2, i 3, eq_ix4 i⟩
  have hrev : (fun a => if a ∈ ([1] : List (Fin S8x2048x2048x1.rank)) then ((ix4 b n j u : S8x2048x2048x1.Idx) a).rev else (ix4 b n j u : S8x2048x2048x1.Idx) a)
      = (ix4 b n.rev j u : S8x2048x2048x1.Idx) :=
    funext fun a => by match a with | ⟨0, _⟩ => rfl | ⟨1, _⟩ => rfl | ⟨2, _⟩ => rfl | ⟨3, _⟩ => rfl
  refine (congrArg (val_main_v30 (F := Ideal) x) hrev).trans ?_
  rw [val_main_v30_apply, idx_unit, val_main_v29_apply, rowVar_at, colVar_at]
  rfl

end Cert.ReferenceIdeal.RefValue

end
-- ==== Proof.lean ====
/- The idealized kernel and the idealized reference compute the same array; the kernel's idealization changed nothing.

   For x of shape [8, 2048, 2048] both programs return, at (b, n, j, 0), the smaller of two leave-one-out variances of
   the entry v = x(b, n', j) at the reversed row n' = 2047 - n: one from row (b, n')'s sum and sum of squares, one from
   column (b, j)'s, each as (q - v·v)·κ - ((s - v)·κ)², with κ the same f32 word (the one nearest 1/2047) in both.

   The reference takes the four sums in one reduction each. The kernel takes the column sums in a first region that
   runs over four blocks of 512 rows per batch, adding each block's column sums to a running block that starts at zero,
   and the row sums inside a second region, whose blocks hold whole rows; that second region reads the first one's two
   arrays and applies the same pointwise formula; two host operations then reverse the rows and add the unit axis, which
   the reference does in the other order. The only algebra between the two sides is that 0 + s = s and that a sum over
   2048 rows is the sum over four blocks of 512 of the blocks' sums: associativity and commutativity of + on the
   extended reals. No step uses finiteness of the input, so the precondition is never opened.

   The three frames are the generated ones (the reference's is its generated run with the result dropped), and the
   conjunct about the idealization is `True`: the ideal pass rewrote no operation. -/
import proofs.«137009_j40870908789394_1_alg».proof.Defs
import proofs.«137009_j40870908789394_1_alg».proof.Proof.Gen.Kernel
import proofs.«137009_j40870908789394_1_alg».proof.Proof.Gen.Kernel.Skeleton
import proofs.«137009_j40870908789394_1_alg».proof.Proof.Gen.Kernel.Launch
import proofs.«137009_j40870908789394_1_alg».proof.Proof.Gen.Kernel.Points
import proofs.«137009_j40870908789394_1_alg».proof.Proof.Gen.Kernel.Frame
import proofs.«137009_j40870908789394_1_alg».proof.Proof.Gen.KernelIdeal
import proofs.«137009_j40870908789394_1_alg».proof.Proof.Gen.KernelIdeal.Skeleton
import proofs.«137009_j40870908789394_1_alg».proof.Proof.Gen.KernelIdeal.Launch
import proofs.«137009_j40870908789394_1_alg».proof.Proof.Gen.KernelIdeal.Points
import proofs.«137009_j40870908789394_1_alg».proof.Proof.Gen.KernelIdeal.Frame
import proofs.«137009_j40870908789394_1_alg».proof.Proof.Gen.ReferenceIdeal
import proofs.«137009_j40870908789394_1_alg».proof.Proof.Gen.Pre_finite_inputs
import proofs.«137009_j40870908789394_1_alg».proof.Proof.KernelValue
import proofs.«137009_j40870908789394_1_alg».proof.Proof.RefSpec
import Idealize.ShloMosaic.Adequacy
import Idealize.ShloMosaic.Init

noncomputable section

namespace Cert.Proof

open Idealize.ShloMosaic Idealize.SL.Sem

/-- The word-level kernel runs and keeps its argument: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, the idealized kernel's result array ends at the specification of x (the kernel's
    run, read through its two regions and its two closing host operations) and so does the reference's (its run's term,
    read one operation at a time). -/
theorem algebraic : Cert.algebraic_KernelIdeal_ReferenceIdeal := by
  intro m ρ m' ρ' _ hagree
  refine ⟨fun c => Cert.LooVar.result (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v31_eq (F := Ideal) _).trans ((Cert.ReferenceIdeal.RefValue.result_eq _).trans ?_)
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
